-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S8192x256 .f32) (main_arg1 : FVec F S4096x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S8192x256 : Shape := ⟨2, ![8192, 256]⟩
abbrev S4096x256 : Shape := ⟨2, ![4096, 256]⟩
abbrev S8192x4096 : Shape := ⟨2, ![8192, 4096]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S4096x256_S4096_d1 : S4096x256.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x256_S4096x256_S8192x4096_1_1_0_0_n_n_wf : DotDims.WF S8192x256 S4096x256 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf

class Facts : Prop extends Facts₀ where

variable [Facts]
-- ==== Proof.Rbf.lean ====
/-
  The Gaussian (radial-basis-function) kernel matrix of the rows of two matrices with 256 columns, as ONE function of
  the two arrays, entry by entry, on the extended reals:

      out (r, q) = exp (g · max (‖x_r‖² + ‖s_q‖² − 2 · ⟨x_r, s_q⟩, 0)),

  where ‖a_r‖² = Σ_k a(r,k)², ⟨a_r, b_q⟩ = Σ_k a(r,k) · b(q,k), and g, 2 and 0 are the values of three fixed
  32-bit float words (g is the float nearest −1/1000; the words are never evaluated: both programs carry the same ones).
  The squared distance is expanded, not computed as Σ_k (x(r,k) − s(q,k))²; since both programs expand it the same way,
  in the same order of additions, no law of arithmetic beyond the reading of each sum is needed, and so nothing about
  infinite entries either.

  Also here, over abstract arrays: the three re-layings by which a length-n vector of row sums reaches every entry of an
  n × b (or a × n) matrix — laid as a column and repeated along rows; laid as a column, transposed to a row and repeated
  along columns — each read at an entry; and a row's sum of squares taken by a reduction over the second axis.
-/
import Idealize.ShloMosaic.PureOps.Ideal
import Idealize.ShloMosaic.PureOps.Ideal.Laws
import Idealize.ShloMosaic.Lib.ValueIdx
import Idealize.ShloMosaic.Lib.ValueLayout

noncomputable section

namespace Cert.Rbf

open Idealize.ShloMosaic Idealize.ShloMosaic.ValueIdx

/-! ## The function -/

/-- `‖a_r‖²`: the sum over the 256 columns of the squares of row `r`. -/
def sqLen {n : ℕ} (a : (⟨2, ![n, 256]⟩ : Shape).Idx → EReal) (r : Fin n) : EReal :=
  ∑ k : Fin 256, a (ix2 r k) * a (ix2 r k)

/-- `⟨a_r, b_q⟩`: the sum over the 256 columns of the products of row `r` of `a` and row `q` of `b`. -/
def inner {n n' : ℕ} (a : (⟨2, ![n, 256]⟩ : Shape).Idx → EReal) (b : (⟨2, ![n', 256]⟩ : Shape).Idx → EReal)
    (r : Fin n) (q : Fin n') : EReal :=
  ∑ k : Fin 256, a (ix2 r k) * b (ix2 q k)

/-- The kernel value of row `r` of `a` against row `q` of `b`: `exp (g · max (‖a_r‖² + ‖b_q‖² − 2 ⟨a_r, b_q⟩, 0))`. -/
def gauss {n n' : ℕ} (a : (⟨2, ![n, 256]⟩ : Shape).Idx → EReal) (b : (⟨2, ![n', 256]⟩ : Shape).Idx → EReal)
    (r : Fin n) (q : Fin n') : EReal :=
  Ideal.exp (Ideal.ofBits .f32 0xBA83126F#32 *
    max (sqLen a r + sqLen b q - Ideal.ofBits .f32 0x40000000#32 * inner a b r q) (Ideal.ofBits .f32 0x00000000#32))

/-- The whole 8192 × 4096 matrix: entry `(r, q)` is the kernel value of input row `r` against sample row `q`. -/
def rbf (x : (⟨2, ![8192, 256]⟩ : Shape).Idx → EReal) (s : (⟨2, ![4096, 256]⟩ : Shape).Idx → EReal) :
    (⟨2, ![8192, 4096]⟩ : Shape).Idx → EReal :=
  fun i => gauss x s (i 0) (i 1)

/-- The kernel value depends only on the two rows: two pairs of arrays that agree on them give the same value. (A 1024-row
    block of an array, against the array itself.) -/
theorem gauss_congr {n n' m m' : ℕ} (a : (⟨2, ![n, 256]⟩ : Shape).Idx → EReal) (b : (⟨2, ![n', 256]⟩ : Shape).Idx → EReal)
    (a' : (⟨2, ![m, 256]⟩ : Shape).Idx → EReal) (b' : (⟨2, ![m', 256]⟩ : Shape).Idx → EReal)
    (r : Fin n) (q : Fin n') (r' : Fin m) (q' : Fin m')
    (ha : ∀ k : Fin 256, a (ix2 r k) = a' (ix2 r' k)) (hb : ∀ k : Fin 256, b (ix2 q k) = b' (ix2 q' k)) :
    gauss a b r q = gauss a' b' r' q' := by
  unfold gauss sqLen inner
  simp only [ha, hb]

/-! ## A vector of row sums re-laid over a matrix -/

variable {α : Type}

/-- A length-`a` vector laid as a column `[a, 1]` reads, at `(p, 0)`, the vector at `p`. -/
theorem column_apply {a : ℕ} (v : (⟨1, ![a]⟩ : Shape).Idx → α) (hc : (⟨1, ![a]⟩ : Shape).ShapeCasts ⟨2, ![a, 1]⟩)
    (p : Fin a) (u : Fin 1) : shapeCast ⟨2, ![a, 1]⟩ v hc (ix2 p u) = v (ix1 p) :=
  shapeCast_apply v hc _ _ (by
    have hu : u.val = 0 := by omega
    rw [Shape.rowMajor_val_one, Shape.rowMajor_val_two]
    show p.val = p.val * 1 + u.val
    rw [hu, Nat.mul_one, Nat.add_zero])

/-- A column `[a, 1]` repeated along each row to `[a, b]` reads, at `(p, q)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- So the vector, laid as a column and repeated along rows, reads at `(p, q)` its entry `p`. -/
theorem alongRows_apply {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (column_apply v hc p 0)

/-- And laid as a column, transposed to a row `[1, b]` and repeated along columns to `[a, b]`, it reads at `(p, q)` its
    entry `q`. -/
theorem alongColumns_apply {a b : ℕ} (v : (⟨1, ![b]⟩ : Shape).Idx → α) (hc : (⟨1, ![b]⟩ : Shape).ShapeCasts ⟨2, ![b, 1]⟩)
    (ht : (⟨2, ![b, 1]⟩ : Shape).Transposes [1, 0] ⟨2, ![1, b]⟩) (hb : (⟨2, ![1, b]⟩ : Shape).Broadcasts ⟨2, ![a, b]⟩)
    (p : Fin a) (q : Fin b) :
    broadcastTo ⟨2, ![a, b]⟩ (transpose ⟨2, ![1, b]⟩ [1, 0] (shapeCast ⟨2, ![b, 1]⟩ v hc) ht) hb (ix2 p q) = v (ix1 q) :=
  (broadcastTo_1b_ab_apply _ hb p q).trans
    ((transpose_ix2_apply _ ht (0 : Fin 1) q).trans (column_apply v hc q 0))

/-! ## A row's sum of squares -/

/-- The sum over the second axis of the entrywise square of an `n × 256` array, into the zero word, is at `r` the squared
    length of row `r`. -/
theorem rowSquares_apply {n : ℕ} (x : FVec Ideal ⟨2, ![n, 256]⟩ .f32) (h : (⟨2, ![n, 256]⟩ : Shape).Reduces [1] ⟨1, ![n]⟩)
    (hφ : FKind.Formats .f32) (hacc : (0x00000000#32 : BitVec 32) = FKind.add.neutral .f32 hφ) (r : Fin n) :
    multiReduction .add [1] ⟨1, ![n]⟩ (mulf x x) 0x00000000#32 h hφ hacc (ix1 r) = sqLen x r := by
  unfold sqLen
  refine (Ideal.multiReduction_add_single (mulf x x) 0x00000000#32 h hφ hacc (ix1 r)).trans
    (Finset.sum_congr rfl fun k _ => ?_)
  have e : h.lift (ix1 r) k = ix2 r k :=
    funext fun a => Fin.ext (by match a with | ⟨0, _⟩ => rfl | ⟨1, _⟩ => rfl)
  rw [e]
  rfl

end Cert.Rbf

end
-- ==== Proof.Tiles.lean ====
/-
  What the tiled program leaves in its result array. The 8192 × 4096 result is cut into 8 × 4 square blocks of side 1024;
  the grid point with block coordinates (bi, bj) loads rows [1024·bi, 1024·bi + 1024) of the inputs and rows
  [1024·bj, 1024·bj + 1024) of the samples, and stores one block computed from these two row blocks alone.

  * At entry (p, q) of its block the stored value is the Gaussian kernel value of row p of the first row block against row
    q of the second: the two lane sums are the rows' squared lengths, re-laid over the block along rows and along columns;
    the matrix product, taken into a zero accumulator with both operands' second axes contracted, is the rows' inner
    product (rounding the operands to a narrower format is the identity on the extended reals).
  * Row p of input row block bi is row 1024·bi + p of the input array, and likewise for the samples with bj, so the stored
    block is the block of the whole-array function; the 32 blocks tile the result, so the result array is that function.
-/
import proofs.«175626_j7791070675758_1_alg».proof.Proof.Gen.KernelIdeal.Value
import proofs.«175626_j7791070675758_1_alg».proof.Proof.Rbf
import Idealize.ShloMosaic.Lib.ValueIdx
import Idealize.ShloMosaic.PureOps.Ideal.Laws

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product of two row blocks, read at an entry -/

theorem lhs_axis0 (i : S1024x1024.Idx) (κ : dot_S1024x256_S1024x256_S1024x1024_1_1_0_0_n_n.contr.Idx) :
    (dot_S1024x256_S1024x256_S1024x1024_1_1_0_0_n_n.lhsIdx i κ 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_axis1 (i : S1024x1024.Idx) (κ : dot_S1024x256_S1024x256_S1024x1024_1_1_0_0_n_n.contr.Idx) :
    (dot_S1024x256_S1024x256_S1024x1024_1_1_0_0_n_n.lhsIdx i κ 1).val = (κ ⟨0, by decide⟩).val :=
  dot_S1024x256_S1024x256_S1024x1024_1_1_0_0_n_n.lhsIdx_val_of_single rfl i κ
theorem rhs_axis0 (i : S1024x1024.Idx) (κ : dot_S1024x256_S1024x256_S1024x1024_1_1_0_0_n_n.contr.Idx) :
    (dot_S1024x256_S1024x256_S1024x1024_1_1_0_0_n_n.rhsIdx i κ 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_axis1 (i : S1024x1024.Idx) (κ : dot_S1024x256_S1024x256_S1024x1024_1_1_0_0_n_n.contr.Idx) :
    (dot_S1024x256_S1024x256_S1024x1024_1_1_0_0_n_n.rhsIdx i κ 1).val = (κ ⟨0, by decide⟩).val :=
  dot_S1024x256_S1024x256_S1024x1024_1_1_0_0_n_n.rhsIdx_val_of_single rfl i κ

/-- The product of two 1024 × 256 row blocks, second axes contracted, into the zero accumulator: entry `(p, q)` is the
    inner product of row `p` of the first with row `q` of the second. -/
theorem product_apply (x0 x1 : FVec Ideal S1024x256 .f32) (p q : Fin 1024) :
    matmul dot_S1024x256_S1024x256_S1024x1024_1_1_0_0_n_n none (truncf .bf16 x0 bitsLt_bf16_f32) (truncf .bf16 x1 bitsLt_bf16_f32)
        (constant S1024x1024 .f32 0x00000000#32) (ix2 p q)
      = Cert.Rbf.inner x0 x1 p q := by
  unfold Cert.Rbf.inner
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]
  rfl

/-! ## The stored block at an entry -/

/-- Entry `(p, q)` of the block a grid point stores is the kernel value of row `p` of its first loaded row block against
    row `q` of its second. -/
theorem stored_apply (x0 x1 : FVec Ideal S1024x256 .f32) (p q : Fin 1024) :
    k0_pay1 (F := Ideal) x0 x1 (ix2 p q) = Cert.Rbf.gauss x0 x1 p q := by
  have hx : broadcastTo S1024x1024 (shapeCast S1024x1 (multiReduction (F := Ideal) .add [1] S1024 (mulf (F := Ideal) x0 x0) 0x00000000#32
        reduces_S1024x256_S1024 (.inl rfl) rfl) shapeCasts_S1024_S1024x1) broadcasts_S1024x1_S1024x1024 (ix2 p q)
      = Cert.Rbf.sqLen x0 p :=
    (Cert.Rbf.alongRows_apply _ shapeCasts_S1024_S1024x1 broadcasts_S1024x1_S1024x1024 p q).trans
      (Cert.Rbf.rowSquares_apply x0 reduces_S1024x256_S1024 (.inl rfl) rfl p)
  have hs : broadcastTo S1024x1024 (transpose S1x1024 [1, 0] (shapeCast S1024x1 (multiReduction (F := Ideal) .add [1] S1024 (mulf (F := Ideal) x1 x1)
        0x00000000#32 reduces_S1024x256_S1024 (.inl rfl) rfl) shapeCasts_S1024_S1024x1) transposes_S1024x1_p1_0_S1x1024)
        broadcasts_S1x1024_S1024x1024 (ix2 p q)
      = Cert.Rbf.sqLen x1 q :=
    (Cert.Rbf.alongColumns_apply _ shapeCasts_S1024_S1024x1 transposes_S1024x1_p1_0_S1x1024 broadcasts_S1x1024_S1024x1024 p q).trans
      (Cert.Rbf.rowSquares_apply x1 reduces_S1024x256_S1024 (.inl rfl) rfl q)
  have hc := product_apply x0 x1 p q
  unfold k0_pay1 Cert.Rbf.gauss
  exact congrArg (fun z => Ideal.exp (Ideal.ofBits .f32 0xBA83126F#32 * max z (Ideal.ofBits .f32 0x00000000#32)))
    (congrArg₂ (fun u w => u - Ideal.ofBits .f32 0x40000000#32 * w) (congrArg₂ (fun u w => u + w) hx hs) hc)

/-! ## From the blocks to the array -/

variable (m : (ℓ : Loc nD τ sig) → Buf (Elt Ideal) ℓ) (ρ : Dev nD → PrngReg)

theorem zero_offsets : (![0, 0] : Fin 2 → Nat) = fun _ => 0 := funext fun a => by fin_cases a <;> rfl

/-- The two row blocks a grid point loads, at their literal type. -/
abbrev xblk (c : Dev nD) (t : Fin cfg0.N) : Vec Ideal S1024x256 .f32 := iblk m c 0 t
abbrev sblk (c : Dev nD) (t : Fin cfg0.N) : Vec Ideal S1024x256 .f32 := iblk m c 1 t

/-- The printed block index maps, decided over the 32 grid points: the input row block moves with the result block's first
    coordinate and the sample row block with its second, neither moves along the columns, and the result block's
    coordinates stay below 8 and 4. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 3 :=
  (by decide +kernel : ∀ t : Fin grid0.N, _)

/-- Every one of the 8 × 4 result blocks is some grid point's. -/
theorem index_onto : ∀ (b0 : Fin 8) (b1 : Fin 4), ∃ t : Fin cfg0.N, win0_2.index t = ![b0.val, b1.val] :=
  (by decide +kernel : ∀ (b0 : Fin 8) (b1 : Fin 4), ∃ t : Fin grid0.N, win0_2.index t = ![b0.val, b1.val])

/-- Row `p` of the input row block at point `t` is row `1024 · bi + p` of the input array. -/
theorem xblk_apply (c : Dev nD) (t : Fin cfg0.N) (p : Fin 1024) (k : Fin 256) (r : Fin 8192)
    (hr : r.val = win0_2.index t (0 : Fin 2) * 1024 + p.val) :
    xblk m c t (ix2 p k) = V m c main_arg0 (ix2 r k) := by
  obtain ⟨e0, e1, -, -, -, -⟩ := index_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 1024 + 1 * p.val = r.val; omega
  | ⟨1, _⟩ => show win0_0.index t (1 : Fin 2) * 256 + 1 * k.val = k.val; omega

/-- Row `q` of the sample row block at point `t` is row `1024 · bj + q` of the sample array. -/
theorem sblk_apply (c : Dev nD) (t : Fin cfg0.N) (q : Fin 1024) (k : Fin 256) (r : Fin 4096)
    (hr : r.val = win0_2.index t (1 : Fin 2) * 1024 + q.val) :
    sblk m c t (ix2 q k) = V m c main_arg1 (ix2 r k) := by
  obtain ⟨-, -, e2, e3, -, -⟩ := index_facts t
  show V m c main_arg1 (((cfg0.win 1).blk t).view.emb (ix2 q k)) = V m c main_arg1 (ix2 r k)
  refine congrArg (V m c main_arg1) (funext fun a => Fin.ext ?_)
  match a with
  | ⟨0, _⟩ => show win0_1.index t (0 : Fin 2) * 1024 + 1 * q.val = r.val; omega
  | ⟨1, _⟩ => show win0_1.index t (1 : Fin 2) * 256 + 1 * k.val = k.val; omega

/-- What grid point `t` writes back is block `t` of the kernel matrix of the two argument arrays. -/
theorem flushed_eq (c : Dev nD) (t : Fin cfg0.N) :
    (dats m 0 c).flushed 2 t
      = ((cfg0.win 2).blk t).view.read (Elt Ideal) (Cert.Rbf.rbf (V m c main_arg0) (V m c main_arg1)) := by
  rw [Value.flushed2]
  unfold out0_2
  rw [View.canon_unit_zero zero_offsets]
  simp only [View.ld_unit_zero (S := S1024x256) zero_offsets]
  funext j
  show k0_pay1 (F := Ideal) (xblk m c t) (sblk m c t) j
    = Cert.Rbf.gauss (V m c main_arg0) (V m c main_arg1) ((((cfg0.win 2).blk t).view.emb j) 0) ((((cfg0.win 2).blk t).view.emb j) 1)
  refine (congrArg (k0_pay1 (F := Ideal) (xblk m c t) (sblk m c t)) (eq_ix2 j)).trans ?_
  refine (stored_apply (xblk m c t) (sblk m c t) (j 0) (j 1)).trans ?_
  exact Cert.Rbf.gauss_congr (xblk m c t) (sblk m c t) (V m c main_arg0) (V m c main_arg1) (j 0) (j 1)
    ((((cfg0.win 2).blk t).view.emb j) 0) ((((cfg0.win 2).blk t).view.emb j) 1)
    (fun k => xblk_apply m c t (j 0) k ((((cfg0.win 2).blk t).view.emb j) 0)
      (show win0_2.index t (0 : Fin 2) * 1024 + 1 * (j 0).val = win0_2.index t (0 : Fin 2) * 1024 + (j 0).val by omega))
    (fun k => sblk_apply m c t (j 1) k ((((cfg0.win 2).blk t).view.emb j) 1)
      (show win0_2.index t (1 : Fin 2) * 1024 + 1 * (j 1).val = win0_2.index t (1 : Fin 2) * 1024 + (j 1).val by omega))

/-- An entry of the result array lies in point `t`'s block iff each coordinate lies in the block's range on its axis. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry lies in the block of the point whose block coordinates are the entry's coordinates divided by 1024. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the kernel matrix of the two argument arrays. -/
theorem final (c : Dev nD) :
    (dats m 0 c).arrAt 2 cfg0.N
      = Cert.Rbf.rbf (m ((c : Thread nD τ).loc main_arg0)) (m ((c : Thread nD τ).loc main_arg1)) :=
  (dats m 0 c).arrAt_eq_of_cover 2 _ (fun t _ => flushed_eq m c t) covered

/-- The run: every weakly fair execution ends with the result array at the kernel matrix of the arguments, the arguments
    unchanged. -/
theorem run : θ_run defs (onTc (τ := τ) (main (F := Ideal))) ⟨m, fun _ => 0, ρ⟩ fun r => ∀ c : Dev nD,
      r.2.mem ((c : Thread nD τ).loc main_v0)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.Whole.lean ====
/-
  The reference program's result, one operation at a time, is the same function: its two reductions over the second axis
  (started from the zero word) are the rows' squared lengths, broadcast over the result as a column and as a row; its
  general dot product, second axes contracted, is the rows' inner product; the remaining operations are entrywise and in
  the same order as in the function's definition.
-/
import proofs.«175626_j7791070675758_1_alg».proof.Proof.Gen.ReferenceIdeal.Read
import proofs.«175626_j7791070675758_1_alg».proof.Proof.Rbf

noncomputable section

namespace Cert.ReferenceIdeal.Whole

open Cert.ReferenceIdeal Cert.ReferenceIdeal.Gen Cert.ReferenceIdeal.Read Idealize.ShloMosaic Idealize.ShloMosaic.ValueIdx

/-- The reference's last stage is the kernel matrix of its two arguments. -/
theorem result_eq (x : (⟨S8192x256, .f32⟩ : BufTy).Contents (Elt Ideal)) (s : (⟨S4096x256, .f32⟩ : BufTy).Contents (Elt Ideal)) :
    val_main_v17 (F := Ideal) x s = Cert.Rbf.rbf x s := by
  funext i
  have ex : ∀ k : Fin 256, idx_main_v1 (idx_main_v2 (idx_main_v7 i)) k = (ix2 (i 0) k : S8192x256.Idx) := fun k =>
    funext fun a => Fin.ext (by match a with | ⟨0, _⟩ => rfl | ⟨1, _⟩ => rfl)
  have es : ∀ k : Fin 256, idx_main_v4 (idx_main_v6 (idx_main_v8 i)) k = (ix2 (i 1) k : S4096x256.Idx) := fun k =>
    funext fun a => Fin.ext (by match a with | ⟨0, _⟩ => rfl | ⟨1, _⟩ => rfl)
  have el : ∀ k : Fin 256, lidx_main_v5 i k = (ix2 (i 0) k : S8192x256.Idx) := fun k =>
    funext fun a => Fin.ext (by match a with | ⟨0, _⟩ => rfl | ⟨1, _⟩ => rfl)
  have er : ∀ k : Fin 256, ridx_main_v5 i k = (ix2 (i 1) k : S4096x256.Idx) := fun k =>
    funext fun a => Fin.ext (by match a with | ⟨0, _⟩ => rfl | ⟨1, _⟩ => rfl)
  have hx : val_main_v7 (F := Ideal) x i = Cert.Rbf.sqLen x (i 0) := by
    rw [val_main_v7_apply, val_main_v2_apply, val_main_v1_apply]
    show Ideal.ofBits .f32 0x00000000#32 + ∑ k : Fin 256, x (idx_main_v1 (idx_main_v2 (idx_main_v7 i)) k) * x (idx_main_v1 (idx_main_v2 (idx_main_v7 i)) k)
      = ∑ k : Fin 256, x (ix2 (i 0) k) * x (ix2 (i 0) k)
    rw [Ideal.ofBits_zero_f32, zero_add]
    exact Finset.sum_congr rfl fun k _ => by rw [ex k]
  have hs : val_main_v8 (F := Ideal) s i = Cert.Rbf.sqLen s (i 1) := by
    rw [val_main_v8_apply, val_main_v6_apply, val_main_v4_apply]
    show Ideal.ofBits .f32 0x00000000#32 + ∑ k : Fin 256, s (idx_main_v4 (idx_main_v6 (idx_main_v8 i)) k) * s (idx_main_v4 (idx_main_v6 (idx_main_v8 i)) k)
      = ∑ k : Fin 256, s (ix2 (i 1) k) * s (ix2 (i 1) k)
    rw [Ideal.ofBits_zero_f32, zero_add]
    exact Finset.sum_congr rfl fun k _ => by rw [es k]
  have hc : val_main_v5 (F := Ideal) x s i = Cert.Rbf.inner x s (i 0) (i 1) := by
    rw [val_main_v5_apply]
    exact Finset.sum_congr rfl fun k _ => by rw [el k, er k]
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v9_apply, hx, hs, hc]
  rfl

end Cert.ReferenceIdeal.Whole

end
-- ==== Proof.lean ====
/-
  A tiled kernel for the Gaussian (radial-basis-function) kernel matrix

      out (b, n) = exp (g · max (‖x_b‖² + ‖s_n‖² − 2 ⟨x_b, s_n⟩, 0)),    x : 8192 × 256,  s : 4096 × 256,

  against the same formula written over the whole arrays. Both programs expand the squared distance as the two squared
  lengths minus twice the inner product, clamp it at zero and multiply by the same float word g before the exponential, in
  the same order, so on the extended reals they compute one function (Proof/Rbf.lean) and no law of arithmetic beyond the
  reading of each sum is used; in particular the finiteness of the inputs is never needed.

  * The tiled program computes the matrix in 8 × 4 square blocks of side 1024, each from a 1024-row block of x and a
    1024-row block of s: each stored block is the block of the whole-array function, and the blocks tile the result
    (Proof/Tiles.lean).
  * The whole-array program's operations, read one at a time at an entry, give the same function (Proof/Whole.lean).
  * Neither program writes its arguments; the idealization rewrote nothing, so it is the program's own text read on the
    extended reals.
-/
import proofs.«175626_j7791070675758_1_alg».proof.Defs
import proofs.«175626_j7791070675758_1_alg».proof.Proof.Gen.Kernel
import proofs.«175626_j7791070675758_1_alg».proof.Proof.Gen.Kernel.Skeleton
import proofs.«175626_j7791070675758_1_alg».proof.Proof.Gen.Kernel.Launch
import proofs.«175626_j7791070675758_1_alg».proof.Proof.Gen.Kernel.Points
import proofs.«175626_j7791070675758_1_alg».proof.Proof.Gen.Kernel.Frame
import proofs.«175626_j7791070675758_1_alg».proof.Proof.Gen.KernelIdeal
import proofs.«175626_j7791070675758_1_alg».proof.Proof.Gen.KernelIdeal.Skeleton
import proofs.«175626_j7791070675758_1_alg».proof.Proof.Gen.KernelIdeal.Launch
import proofs.«175626_j7791070675758_1_alg».proof.Proof.Gen.KernelIdeal.Points
import proofs.«175626_j7791070675758_1_alg».proof.Proof.Gen.KernelIdeal.Frame
import proofs.«175626_j7791070675758_1_alg».proof.Proof.Gen.ReferenceIdeal
import proofs.«175626_j7791070675758_1_alg».proof.Proof.Gen.Pre_finite_inputs
import proofs.«175626_j7791070675758_1_alg».proof.Proof.Gen.KernelIdeal.Value
import proofs.«175626_j7791070675758_1_alg».proof.Proof.Gen.ReferenceIdeal.Run
import proofs.«175626_j7791070675758_1_alg».proof.Proof.Gen.ReferenceIdeal.Read
import proofs.«175626_j7791070675758_1_alg».proof.Proof.Rbf
import proofs.«175626_j7791070675758_1_alg».proof.Proof.Tiles
import proofs.«175626_j7791070675758_1_alg».proof.Proof.Whole
import Idealize.ShloMosaic.Adequacy
import Idealize.ShloMosaic.Init

noncomputable section

namespace Cert.Proof

open Idealize.ShloMosaic Idealize.ShloMosaic.TcCoe Idealize.SL.Sem

/-- The tiled program, on machine words, terminates without a fault and leaves its two arguments as they were. -/
theorem frame_words : Cert.frame_Kernel := fun m ρ _ => Cert.Kernel.Gen.frame m ρ

/-- The same program read on the extended reals does so too. -/
theorem frame_tiled : Cert.frame_KernelIdeal := fun m ρ _ => Cert.KernelIdeal.Gen.frame m ρ

/-- The whole-array program terminates without a fault and leaves its two arguments as they were: its run, the result
    forgotten. -/
theorem frame_whole : Cert.frame_ReferenceIdeal := fun m ρ _ =>
  (θ_run Cert.ReferenceIdeal.defs _ _).mono (fun _ h c => (h c).2) (Cert.ReferenceIdeal.Value.run (F := Ideal) m ρ)

/-- From memories that agree on x and s, both programs end with the kernel matrix of x and s in their result array. -/
theorem same_matrix : Cert.algebraic_KernelIdeal_ReferenceIdeal := by
  intro m ρ m' ρ' _ hagree
  refine ⟨fun c => Cert.Rbf.rbf (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Whole.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_words, frame_tiled, frame_whole, trivial, same_matrix⟩

end Cert.Proof

end
